-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) (main_arg2 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S8x2048x512 .f32 := Host.absf main_arg2
  let main_cst_2 : FVec F S_ .f32 := constant S_ .f32 0x7F800000#32
  let main_v10 : FVec F S8x2048x512 .f32 := broadcastInDim S8x2048x512 ![] bcast_S_S8x2048x512 main_cst_2
  let main_v11 : IVec S8x2048x512 1 := cmpf .olt main_v9 main_v10
  let main_c_3 : IVec S_ 1 := constantI S_ 1 1#1
  let main_v12 : IVec S_ 1 := (fun x v => Host.reduce IntOp.andi x v reducesTo_S8x2048x512_S_d0_1_2 h_S_) main_v11 main_c_3
  let main_v13 : IVec S_ 1 := andi main_v8 main_v12
  main_v13
-- ==== Kernel.lean ====
abbrev S8x2048x512 : Shape := ⟨3, ![8, 2048, 512]⟩
abbrev S1x512x512 : Shape := ⟨3, ![1, 512, 512]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S512x1, .f32⟩
  | .local _ .vmem, ⟨9, _⟩ => ⟨S512x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_17 : BitVec 32 := 0#32
  let v35 : BitVec 1 := Scalar.cmpi .ne v34 c0_i32_17
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x2048x512.size a
  hwx0_1 : ∀ i : grid0.Coords, EltTy.bits .f32 = 32 ∨ (Rect.block (s := S8x2048x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x2048x512.size a
  hwx0_2 : ∀ i : grid0.Coords, EltTy.bits .f32 = 32 ∨ (Rect.block (s := S8x2048x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x2048x512.size a
  hwx0_3 : ∀ i : grid0.Coords, EltTy.bits .f32 = 32 ∨ (Rect.block (s := S8x2048x512) S1x512x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x2048, .f32⟩
  | .hbm, ⟨4, _⟩ => ⟨S_, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x512, .f32⟩
  | .hbm, ⟨26, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048x1_S8x2048x512_0_1_2 : S8x2048x1.BroadcastsInDim S8x2048x512 (![0, 1, 2] : Fin 3 → Fin S8x2048x512.rank)
  dot_S8x2048x512_S8x2048x512_S8x2048x2048_2_2_1_1_0_0_wf : DotDims.WF S8x2048x512 S8x2048x512 S8x2048x2048 [2] [2] [1] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf

class Facts : Prop extends Facts₀ where

variable [Facts]
-- ==== Proof.Extended.lean ====
/-
  Extended reals that are real numbers.

  Both programs compute a softmax row sum, which is 1 exactly when every term is a real number and the
  normaliser is a positive real.  This module holds the small facts about extended reals used for that:
  which extended reals are real, non-negative real or positive real numbers, and how those three classes
  behave under sums, products, maxima, the exponential and the quotient.
-/
import Idealize.ShloMosaic.PureOps.Ideal
import Idealize.ShloMosaic.PureOps.Ideal.Laws
import Mathlib.Data.Finset.Fold

noncomputable section

namespace Cert.RowSum

open Idealize.ShloMosaic

/-- An extended real that is a real number. -/
def IsReal (x : EReal) : Prop := ∃ r : ℝ, x = (r : EReal)

/-- An extended real that is a non-negative real number. -/
def IsNonneg (x : EReal) : Prop := ∃ r : ℝ, 0 ≤ r ∧ x = (r : EReal)

/-- An extended real that is a positive real number. -/
def IsPos (x : EReal) : Prop := ∃ r : ℝ, 0 < r ∧ x = (r : EReal)

theorem IsPos.isNonneg {x : EReal} (h : IsPos x) : IsNonneg x := by
  obtain ⟨r, hr, rfl⟩ := h; exact ⟨r, hr.le, rfl⟩

theorem IsNonneg.isReal {x : EReal} (h : IsNonneg x) : IsReal x := by
  obtain ⟨r, _, rfl⟩ := h; exact ⟨r, rfl⟩

theorem IsPos.isReal {x : EReal} (h : IsPos x) : IsReal x := h.isNonneg.isReal

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (hb : x ≠ ⊥) (ht : x ≠ ⊤) : IsReal x :=
  ⟨x.toReal, (EReal.coe_toReal ht hb).symm⟩

theorem isReal_zero : IsReal 0 := ⟨0, rfl⟩
theorem isNonneg_zero : IsNonneg 0 := ⟨0, le_rfl, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsNonneg.mul {x y : EReal} (hx : IsNonneg x) (hy : IsNonneg y) : IsNonneg (x * y) := by
  obtain ⟨a, ha, rfl⟩ := hx; obtain ⟨b, hb, rfl⟩ := hy
  exact ⟨a * b, mul_nonneg ha hb, (EReal.coe_mul a b).symm⟩

theorem IsNonneg.add_isPos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The coercion of a finite sum of reals is the sum of the coercions. -/
theorem coe_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A finite sum of real numbers is a real number. -/
theorem isReal_sum {ι : Type*} (s : Finset ι) (f : ι → EReal) (h : ∀ k ∈ s, IsReal (f k)) :
    IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- A sum of positive reals over a non-empty index type is a positive real. -/
theorem isPos_sum {ι : Type*} [Fintype ι] [Nonempty ι] (f : ι → EReal) (h : ∀ k, IsPos (f k)) :
    IsPos (∑ k, f k) := by
  choose g hg using h
  have e : (fun k => f k) = fun k => ((g k : ℝ) : EReal) := funext fun k => (hg k).2
  refine ⟨∑ k, g k, Finset.sum_pos (fun k _ => (hg k).1) Finset.univ_nonempty, ?_⟩
  rw [coe_sum]; exact Finset.sum_congr rfl fun k _ => (hg k).2

/-- The exponential of a real number is a positive real. -/
theorem isPos_exp {x : EReal} (h : IsReal x) : IsPos (Ideal.exp x) := by
  obtain ⟨r, rfl⟩ := h; exact ⟨Real.exp r, Real.exp_pos r, rfl⟩

/-- The exponential of anything below `+∞` is a non-negative real (it is `0` at `-∞`). -/
theorem isNonneg_exp {x : EReal} (h : x ≠ ⊤) : IsNonneg (Ideal.exp x) := by
  induction x using EReal.rec with
  | bot => exact ⟨0, le_rfl, rfl⟩
  | top => exact absurd rfl h
  | coe r => exact ⟨Real.exp r, (Real.exp_pos r).le, rfl⟩

/-- Subtracting a real number from something below `+∞` stays below `+∞`. -/
theorem sub_ne_top {x y : EReal} (hx : x ≠ ⊤) (hy : IsReal y) : x - y ≠ ⊤ := by
  obtain ⟨b, rfl⟩ := hy
  induction x using EReal.rec with
  | bot => exact fun h => by simp at h
  | top => exact absurd rfl hx
  | coe a => rw [← EReal.coe_sub]; exact EReal.coe_ne_top _

/-- The larger of something below `+∞` and a real number is a real number. -/
theorem isReal_max {x y : EReal} (hx : x ≠ ⊤) (hy : IsReal y) : IsReal (max x y) := by
  refine isReal_of_ne ?_ ?_
  · exact ne_of_gt (lt_of_lt_of_le (bot_lt_iff_ne_bot.mpr hy.ne_bot) (le_max_right x y))
  · exact ne_of_lt (max_lt (lt_top_iff_ne_top.mpr hx) (lt_top_iff_ne_top.mpr hy.ne_top))

/-- The running maximum from `-∞` over a non-empty finite family of real numbers is a real number. -/
theorem isReal_fold_max {ι : Type*} (s : Finset ι) (hs : s.Nonempty) (f : ι → EReal) (h : ∀ k ∈ s, IsReal (f k)) :
    IsReal (s.fold max ⊥ f) := by
  refine isReal_of_ne ?_ ?_
  · obtain ⟨k, hk⟩ := hs
    exact ne_of_gt ((Finset.lt_fold_max _).mpr (Or.inr ⟨k, hk, bot_lt_iff_ne_bot.mpr (h k hk).ne_bot⟩))
  · exact ne_of_lt ((Finset.fold_max_lt _).mpr ⟨bot_lt_top, fun k hk => lt_top_iff_ne_top.mpr (h k hk).ne_top⟩)

/-- A positive real divided by itself is one. -/
theorem div_self_of_isPos {x : EReal} (h : IsPos x) : Ideal.div x x = 1 := by
  obtain ⟨r, hr, rfl⟩ := h
  rw [Ideal.div_coe hr.ne', ← EReal.coe_mul, mul_one_div_cancel hr.ne', EReal.coe_one]

/-- THE ROW SUM OF A SOFTMAX.  Positive real terms, each divided by their sum, add up to one. -/
theorem sum_div_sum {ι : Type*} [Fintype ι] [Nonempty ι] (e : ι → EReal) (he : ∀ k, IsPos (e k)) :
    ∑ k, Ideal.div (e k) (∑ k', e k') = 1 := by
  choose g hg using he
  have hs : 0 < ∑ k, g k := Finset.sum_pos (fun k _ => (hg k).1) Finset.univ_nonempty
  have e1 : ∑ k', e k' = ((∑ k, g k : ℝ) : EReal) := by
    rw [coe_sum]; exact Finset.sum_congr rfl fun k _ => (hg k).2
  rw [e1]
  have e2 : ∀ k, Ideal.div (e k) ((∑ k, g k : ℝ) : EReal) = ((g k * (1 / ∑ k, g k) : ℝ) : EReal) := fun k => by
    rw [Ideal.div_coe hs.ne', (hg k).2, ← EReal.coe_mul]
  rw [Finset.sum_congr rfl fun k _ => e2 k, ← coe_sum, ← Finset.sum_mul, mul_one_div_cancel hs.ne', EReal.coe_one]

end Cert.RowSum

end
-- ==== Proof.Finite.lean ====
/-
  From the precondition to real entries.

  The precondition says, of each of the three arguments, that every entry has absolute value below
  `+∞`, the three statements joined by `and`.  On the extended reals the absolute value of `x` is
  `max x (-x)`, which is below `+∞` exactly when `x` is neither `-∞` nor `+∞`: a real number.  This
  module reads the precondition back, entry by entry, into that statement for the first two arguments.
-/
import proofs.«170930_j43035572306294_1_alg».proof.Proof.Extended
import proofs.«170930_j43035572306294_1_alg».proof.Pre_finite_inputs
import Idealize.ShloMosaic.Lib.ReduceAll
import Idealize.ShloMosaic.Lib.ValueIdx

noncomputable section

namespace Cert.RowSum

open Idealize.ShloMosaic Cert.Pre_finite_inputs

/-- The shape of a scalar has exactly one index. -/
instance : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value `max x (-x)` is below `+∞` is a real number. -/
theorem isReal_of_abs_lt_top {x : EReal} (h : max x (-x) < ⊤) : IsReal x := by
  induction x using EReal.rec with
  | bot => simp at h
  | top => simp at h
  | coe r => exact ⟨r, rfl⟩

/-- The comparison `|x| < +∞` coming out true says that `x` is a real number. -/
theorem isReal_of_cmp {x : EReal}
    (h : Ideal.cmp .olt (max x (-x)) (Ideal.ofBits .f32 0x7F800000#32) = 1#1) : IsReal x := by
  rw [ofBits_inf] at h
  refine isReal_of_abs_lt_top ?_
  by_contra hn
  simp [Ideal.cmp, hn] at h

/-- One `all(|x| < +∞)`: if the conjunction over all entries is true, every entry is a real number. -/
theorem real_of_all [Facts] (x : FVec Ideal S8x2048x512 .f32)
    (h : Host.reduce IntOp.andi
        (cmpf .olt (Host.absf x)
          (broadcastInDim S8x2048x512 ![] Facts.bcast_S_S8x2048x512 (constant S_ .f32 0x7F800000#32)))
        (constantI S_ 1 1#1) Facts.reducesTo_S8x2048x512_S_d0_1_2 Facts.h_S_ ValueIdx.ix0 = 1#1) :
    ∀ i, IsReal (x i) := fun i => by
  have e := Host.reduce_andi_all _ _ _ _ _ h i
  exact isReal_of_cmp e

/-- THE PRECONDITION READ BACK.  If the finiteness predicate of the three arguments is true, every entry
    of the first and of the second argument is a real number. -/
theorem real_of_pre [Facts] (q k v : FVec Ideal S8x2048x512 .f32)
    (h : fn (F := Ideal) q k v = fun _ => 1#1) :
    (∀ i, IsReal (q i)) ∧ (∀ i, IsReal (k i)) := by
  have h0 := congrFun h ValueIdx.ix0
  dsimp only [fn] at h0
  obtain ⟨h1, _⟩ := IntOp.andi_eq_one.1 h0
  obtain ⟨hq, hk⟩ := IntOp.andi_eq_one.1 h1
  exact ⟨real_of_all q hq, real_of_all k hk⟩

end Cert.RowSum

end
-- ==== Proof.Pieces.lean ====
import proofs.«170930_j43035572306294_1_alg».proof.Proof.Gen.KernelIdeal.Value
import Idealize.ShloMosaic.Lib.Pipeline.Value

set_option maxRecDepth 16384

noncomputable section

namespace Cert.KernelIdeal.RowSum

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

/-! What each control case leaves in the two carried scratch vectors (the running row maximum and the running
    normaliser) and, at the last key block, in the output block: the body's arithmetic applied to the point's
    blocks and to what the scratch held before. -/

theorem hz2 : (![0, 0] : Fin 2 → Nat) = fun _ => 0 := by funext a; fin_cases a <;> rfl
theorem hz3 : (![0, 0, 0] : Fin 3 → Nat) = fun _ => 0 := by funext a; fin_cases a <;> rfl

theorem max_first (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S1x512x512 .f32) (x1 : Vec F S1x512x512 .f32) (x2 : Vec F S1x512x512 .f32) :
    sout0_A_0 c i arg3 harg3 arg4 harg4 arg5 harg5 arg6 harg6 arg7 harg7 arg8 harg8 hc0 hc1 x0 x1 x2 = k0_pay7 x0 x1 (k0_pay2 (F := F)) := by
  unfold sout0_A_0
  rw [View.read_writes_eq_canon _ _ _ (scover0_A_0 c i arg3 harg3 arg4 harg4 arg5 harg5 arg6 harg6 arg7 harg7 arg8 harg8 hc0 hc1 x0 x1 x2)]
  unfold kernelRun0_A
  dsimp only
  sl_unfold_words
  rw [View.canon_cons_unit_zero (S := S512x1) hz2]
  simp only [View.readAt_eq_ld, harg3.read_unread, harg4.read_unread, harg5.read_unread, harg7.read_unread, harg8.read_unread, View.ld_unit_zero (S := S1x512x512) hz3, View.ld_unit_zero (S := S512x1) hz2, View.readCov_unit_zero (S := S512x1) _ hz2]

theorem sum_first (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S1x512x512 .f32) (x1 : Vec F S1x512x512 .f32) (x2 : Vec F S1x512x512 .f32) :
    sout0_A_1 c i arg3 harg3 arg4 harg4 arg5 harg5 arg6 harg6 arg7 harg7 arg8 harg8 hc0 hc1 x0 x1 x2 = k0_pay6 x0 x1 (k0_pay2 (F := F)) (k0_pay3 (F := F)) := by
  unfold sout0_A_1
  rw [View.read_writes_eq_canon _ _ _ (scover0_A_1 c i arg3 harg3 arg4 harg4 arg5 harg5 arg6 harg6 arg7 harg7 arg8 harg8 hc0 hc1 x0 x1 x2)]
  unfold kernelRun0_A
  dsimp only
  sl_unfold_words
  rw [View.canon_cons_unit_zero (S := S512x1) hz2]
  simp only [View.readAt_eq_ld, harg3.read_unread, harg4.read_unread, harg5.read_unread, harg7.read_unread, harg8.read_unread, View.ld_unit_zero (S := S1x512x512) hz3, View.ld_unit_zero (S := S512x1) hz2, View.readCov_unit_zero (S := S512x1) _ hz2]

theorem max_mid (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S1x512x512 .f32) (x1 : Vec F S1x512x512 .f32) (x2 : Vec F S1x512x512 .f32) (xs0 : Vec F S512x1 .f32) (xs1 : Vec F S512x1 .f32) :
    sout0_B_0 c i arg3 harg3 arg4 harg4 arg5 harg5 arg6 harg6 arg7 harg7 arg8 harg8 hc0 hc1 x0 x1 x2 xs0 xs1 = k0_pay7 x0 x1 xs0 := by
  unfold sout0_B_0
  rw [View.read_writes_eq_canon _ _ _ (scover0_B_0 c i arg3 harg3 arg4 harg4 arg5 harg5 arg6 harg6 arg7 harg7 arg8 harg8 hc0 hc1 x0 x1 x2 xs0 xs1)]
  unfold kernelRun0_B
  dsimp only
  sl_unfold_words
  rw [View.canon_unit_zero (S := S512x1) hz2]
  simp only [View.readAt_eq_ld, harg3.read_unread, harg4.read_unread, harg5.read_unread, harg7.read_unread, harg8.read_unread, View.ld_unit_zero (S := S1x512x512) hz3, View.ld_unit_zero (S := S512x1) hz2, View.readCov_unit_zero (S := S512x1) _ hz2]

theorem sum_mid (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S1x512x512 .f32) (x1 : Vec F S1x512x512 .f32) (x2 : Vec F S1x512x512 .f32) (xs0 : Vec F S512x1 .f32) (xs1 : Vec F S512x1 .f32) :
    sout0_B_1 c i arg3 harg3 arg4 harg4 arg5 harg5 arg6 harg6 arg7 harg7 arg8 harg8 hc0 hc1 x0 x1 x2 xs0 xs1 = k0_pay6 x0 x1 xs0 xs1 := by
  unfold sout0_B_1
  rw [View.read_writes_eq_canon _ _ _ (scover0_B_1 c i arg3 harg3 arg4 harg4 arg5 harg5 arg6 harg6 arg7 harg7 arg8 harg8 hc0 hc1 x0 x1 x2 xs0 xs1)]
  unfold kernelRun0_B
  dsimp only
  sl_unfold_words
  rw [View.canon_unit_zero (S := S512x1) hz2]
  simp only [View.readAt_eq_ld, harg3.read_unread, harg4.read_unread, harg5.read_unread, harg7.read_unread, harg8.read_unread, View.ld_unit_zero (S := S1x512x512) hz3, View.ld_unit_zero (S := S512x1) hz2, View.readCov_unit_zero (S := S512x1) _ hz2]

theorem max_last (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S1x512x512 .f32) (x1 : Vec F S1x512x512 .f32) (x2 : Vec F S1x512x512 .f32) (xs0 : Vec F S512x1 .f32) (xs1 : Vec F S512x1 .f32) :
    sout0_C_0 c i arg3 harg3 arg4 harg4 arg5 harg5 arg6 harg6 arg7 harg7 arg8 harg8 hc0 hc1 x0 x1 x2 xs0 xs1 = k0_pay7 x0 x1 xs0 := by
  unfold sout0_C_0
  rw [View.read_writes_eq_canon _ _ _ (scover0_C_0 c i arg3 harg3 arg4 harg4 arg5 harg5 arg6 harg6 arg7 harg7 arg8 harg8 hc0 hc1 x0 x1 x2 xs0 xs1)]
  unfold kernelRun0_C
  dsimp only
  sl_unfold_words
  rw [View.canon_unit_zero (S := S512x1) hz2]
  simp only [View.readAt_eq_ld, harg3.read_unread, harg4.read_unread, harg5.read_unread, harg7.read_unread, harg8.read_unread, View.ld_unit_zero (S := S1x512x512) hz3, View.ld_unit_zero (S := S512x1) hz2, View.readCov_unit_zero (S := S512x1) _ hz2]

theorem sum_last (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S1x512x512 .f32) (x1 : Vec F S1x512x512 .f32) (x2 : Vec F S1x512x512 .f32) (xs0 : Vec F S512x1 .f32) (xs1 : Vec F S512x1 .f32) :
    sout0_C_1 c i arg3 harg3 arg4 harg4 arg5 harg5 arg6 harg6 arg7 harg7 arg8 harg8 hc0 hc1 x0 x1 x2 xs0 xs1 = k0_pay6 x0 x1 xs0 xs1 := by
  unfold sout0_C_1
  rw [View.read_writes_eq_canon _ _ _ (scover0_C_1 c i arg3 harg3 arg4 harg4 arg5 harg5 arg6 harg6 arg7 harg7 arg8 harg8 hc0 hc1 x0 x1 x2 xs0 xs1)]
  unfold kernelRun0_C
  dsimp only
  sl_unfold_words
  rw [View.canon_unit_zero (S := S512x1) hz2]
  simp only [View.readAt_eq_ld, harg3.read_unread, harg4.read_unread, harg5.read_unread, harg7.read_unread, harg8.read_unread, View.ld_unit_zero (S := S1x512x512) hz3, View.ld_unit_zero (S := S512x1) hz2, View.readCov_unit_zero (S := S512x1) _ hz2]

theorem out_last (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S1x512x512 .f32) (x1 : Vec F S1x512x512 .f32) (x2 : Vec F S1x512x512 .f32) (xs0 : Vec F S512x1 .f32) (xs1 : Vec F S512x1 .f32) :
    out0_C_3 c i arg3 harg3 arg4 harg4 arg5 harg5 arg6 harg6 arg7 harg7 arg8 harg8 hc0 hc1 x0 x1 x2 xs0 xs1 = k0_pay1 (k0_pay6 x0 x1 xs0 xs1) x2 := by
  unfold out0_C_3
  rw [View.read_writes_eq_canon _ _ _ (cover0_C_3 c i arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x512x512) hz3]
  simp only [View.readAt_eq_ld, harg3.read_unread, harg4.read_unread, harg5.read_unread, harg7.read_unread, harg8.read_unread, View.ld_unit_zero (S := S1x512x512) hz3, View.ld_unit_zero (S := S512x1) hz2, View.readCov_unit_zero (S := S512x1) _ hz2]

end Cert.KernelIdeal.RowSum

end
-- ==== Proof.Payload.lean ====
/-
  The body's arithmetic at the ideal values, as far as the certificate needs it.

  One grid step of the online softmax takes the running row maximum `m` and the running normaliser `l`
  to `m' = max m (rowmax s)` and `l' = exp (m - m') · l + Σ_k exp (s_k - m')`, `s` the block of scaled
  scores.  When the query and key blocks hold real numbers the scores are real; then `m'` is real as
  soon as `m` is below +∞, and `l'` is a positive real as soon as moreover `l` is a non-negative real.
  At the last key block the output block is `v · (l / l)`, which is `v` when `l` is a positive real.
-/
import proofs.«170930_j43035572306294_1_alg».proof.Proof.Gen.KernelIdeal.Skeleton
import proofs.«170930_j43035572306294_1_alg».proof.Proof.Extended
import Idealize.ShloMosaic.PureOps.Ideal.Laws
import Idealize.ShloMosaic.Lib.ValueIdx
import Idealize.ShloMosaic.Lib.Pipeline.Value

noncomputable section

namespace Cert.KernelIdeal.RowSum

open Cert.KernelIdeal Cert.KernelIdeal.Gen Idealize.ShloMosaic Idealize.ShloMosaic.ValueIdx Cert.RowSum

/-- A pattern whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split <;> exact ⟨_, rfl⟩

/-- The scale the kernel multiplies the scores by is a real number. -/
theorem scale_real : IsReal (Ideal.ofBits .f32 0x3D3504F3#32) :=
  show IsReal (Ideal.ieee 8 23 (0x3D3504F3#32 : BitVec 32)) from isReal_ieee 8 23 _ (by decide)

/-- The pattern of -∞. -/
theorem ofBits_neg_inf : Ideal.ofBits .f32 0xFF800000#32 = ⊥ := by simp [Ideal.ofBits, Ideal.ieee]

variable (x0 x1 : Vec Ideal S1x512x512 .f32)

/-- THE SCORES ARE REAL: each is a finite sum of products of entries of the two blocks, times the scale. -/
theorem scores_real (h0 : ∀ i, IsReal (x0 i)) (h1 : ∀ i, IsReal (x1 i)) (j : S512x512.Idx) :
    IsReal (k0_pay4 x0 x1 j) := by
  unfold k0_pay4
  dsimp only
  rw [mulf_apply, broadcast_apply]
  simp only [matmul]
  rw [Ideal.matmul_constant_zero_apply]
  exact (isReal_sum _ _ fun k _ => (h0 _).mul (h1 _)).mul scale_real

instance : Nonempty (Fin (S512x512.size 1)) := ⟨⟨0, by decide⟩⟩

/-- The maximum of a row of real numbers, taken from -∞, is a real number. -/
theorem rowmax_real (s : FVec Ideal S512x512 .f32) (hs : ∀ j, IsReal (s j)) (r : S512.Idx) :
    IsReal (multiReduction .maximumf [1] S512 s 0xFF800000#32 reduces_S512x512_S512 (.inl rfl) rfl r) := by
  refine (congrArg IsReal (Ideal.multiReduction_maximumf_single s 0xFF800000#32 reduces_S512x512_S512 (.inl rfl) rfl r)).mpr ?_
  show IsReal (Finset.univ.fold max (Ideal.ofBits .f32 0xFF800000#32) _)
  rw [ofBits_neg_inf]
  exact isReal_fold_max _ Finset.univ_nonempty _ fun k _ => hs _

variable (mp lp : Vec Ideal S512x1 .f32)

/-- THE NEW ROW MAXIMUM IS REAL when the old one is below +∞ (it is -∞ at the first key block). -/
theorem newmax_real (h0 : ∀ i, IsReal (x0 i)) (h1 : ∀ i, IsReal (x1 i)) (hm : ∀ r, mp r ≠ ⊤) (r : S512x1.Idx) :
    IsReal (k0_pay5 x0 x1 mp r) := by
  unfold k0_pay5
  dsimp only
  rw [maximumf_apply]
  exact isReal_max (hm r) (rowmax_real _ (scores_real x0 x1 h0 h1) _)

theorem pay7_eq : k0_pay7 x0 x1 mp = k0_pay5 x0 x1 mp := by
  unfold k0_pay7
  exact shapeCast_self _ _

/-- THE NEW NORMALISER IS A POSITIVE REAL: a non-negative real multiple of the old one plus a sum of 512
    exponentials of real numbers. -/
theorem newsum_pos (h0 : ∀ i, IsReal (x0 i)) (h1 : ∀ i, IsReal (x1 i)) (hm : ∀ r, mp r ≠ ⊤)
    (hl : ∀ r, IsNonneg (lp r)) (r : S512x1.Idx) : IsPos (k0_pay6 x0 x1 mp lp r) := by
  unfold k0_pay6
  dsimp only
  rw [shapeCast_self, addf_apply, mulf_apply]
  refine IsNonneg.add_isPos ((isNonneg_exp (sub_ne_top (hm r) (newmax_real x0 x1 mp h0 h1 hm r))).mul (hl r)) ?_
  refine (congrArg IsPos (Ideal.multiReduction_add_single _ 0x00000000#32 reduces_S512x512_S512 (.inl rfl) rfl _)).mpr ?_
  exact isPos_sum _ fun k => isPos_exp ((scores_real x0 x1 h0 h1 _).sub (newmax_real x0 x1 mp h0 h1 hm _))

/-- THE OUTPUT BLOCK IS THE VALUE BLOCK: the factor `l / l` is one at every row. -/
theorem out_eq (l : Vec Ideal S512x1 .f32) (hl : ∀ r, IsPos (l r)) (x2 : Vec Ideal S1x512x512 .f32) :
    k0_pay1 l x2 = x2 := by
  unfold k0_pay1
  dsimp only
  refine (congrArg (fun z => shapeCast S1x512x512 z shapeCasts_S512x512_S1x512x512) ?_).trans
    (shapeCast_shapeCast x2 shapeCasts_S1x512x512_S512x512 shapeCasts_S512x512_S1x512x512)
  funext j
  rw [mulf_apply]
  show _ * Ideal.div (l _) (l _) = _
  rw [div_self_of_isPos (hl _), mul_one]

end Cert.KernelIdeal.RowSum

end
-- ==== Proof.KernelValue.lean ====
/-
  The kernel's result array at the ideal values is the value array `v`.

  The grid is 8 batches × 4 query blocks × 4 key blocks, walked with the key block innermost.  Along one
  run of four key blocks the two carried vectors are the online-softmax row maximum and normaliser; after
  EVERY point the maximum is real and the normaliser a positive real (the first key block starts them from
  -∞ and 0, every later one continues from real and positive values).  The output block of a (batch, query
  block) pair is stored and written back only at the last key block, as `v · (l / l) = v`; these 32 blocks
  tile the result array.
-/
import proofs.«170930_j43035572306294_1_alg».proof.Proof.Gen.KernelIdeal.Value
import proofs.«170930_j43035572306294_1_alg».proof.Proof.Pieces
import proofs.«170930_j43035572306294_1_alg».proof.Proof.Payload

set_option maxRecDepth 16384

noncomputable section

namespace Cert.KernelIdeal.RowSum

open Cert.KernelIdeal Cert.KernelIdeal.Gen Idealize.ShloMosaic Idealize.ShloMosaic.TcCoe Idealize.SL.Sem Cert.RowSum
open Idealize.ShloMosaic.Pipeline (Dat)

variable (m : (ℓ : Loc nD τ sig) → Buf (Elt Ideal) ℓ) (ρ : Dev nD → PrngReg)

/-- The three argument arrays as the region finds them, and their blocks at a grid point. -/
abbrev qarr (c : Dev nD) : Vec Ideal S8x2048x512 .f32 := V m c main_arg0
abbrev karr (c : Dev nD) : Vec Ideal S8x2048x512 .f32 := V m c main_arg1
abbrev varr (c : Dev nD) : Vec Ideal S8x2048x512 .f32 := V m c main_arg2
abbrev qblk (c : Dev nD) (t : Fin cfg0.N) : Vec Ideal S1x512x512 .f32 := iblk m c 0 t
abbrev kblk (c : Dev nD) (t : Fin cfg0.N) : Vec Ideal S1x512x512 .f32 := iblk m c 1 t
abbrev vblk (c : Dev nD) (t : Fin cfg0.N) : Vec Ideal S1x512x512 .f32 := iblk m c 2 t

/-- A block of an array of real numbers holds real numbers. -/
theorem qblk_real (c : Dev nD) (hq : ∀ i, IsReal (qarr m c i)) (t : Fin cfg0.N) (y : S1x512x512.Idx) :
    IsReal (qblk m c t y) := by
  show IsReal (V m c main_arg0 (((cfg0.win 0).blk t).view.emb y))
  exact hq _

theorem kblk_real (c : Dev nD) (hk : ∀ i, IsReal (karr m c i)) (t : Fin cfg0.N) (y : S1x512x512.Idx) :
    IsReal (kblk m c t y) := by
  show IsReal (V m c main_arg1 (((cfg0.win 1).blk t).view.emb y))
  exact hk _

/-- The reset values of the two carried vectors: -∞ (below +∞) and 0 (a non-negative real). -/
theorem reset_max_ne_top (r : S512x1.Idx) : k0_pay2 (F := Ideal) r ≠ ⊤ := by
  show Ideal.ofBits .f32 0xFF800000#32 ≠ ⊤
  rw [ofBits_neg_inf]; exact bot_ne_top

theorem reset_sum_nonneg (r : S512x1.Idx) : IsNonneg (k0_pay3 (F := Ideal) r) := by
  show IsNonneg (Ideal.ofBits .f32 0x00000000#32)
  rw [Ideal.ofBits_zero_f32]; exact isNonneg_zero

/-- THE INVARIANT OF THE CARRIED VECTORS: after every grid point the running maximum is real and the running
    normaliser is a positive real, at every row. -/
theorem carried (c : Dev nD) (hq : ∀ i, IsReal (qarr m c i)) (hk : ∀ i, IsReal (karr m c i)) :
    ∀ (n : ℕ) (hn : n < cfg0.N),
      (∀ r, IsReal ((outsAt0 m c n hn).2.1 r)) ∧ (∀ r, IsPos ((outsAt0 m c n hn).2.2 r)) := by
  intro n
  induction n using Nat.strong_induction_on with
  | _ n ih =>
    intro hn
    have hN : n < 128 := lt_of_lt_of_eq hn (show cfg0.N = 128 from N_0)
    have hqb := qblk_real m c hq ⟨n, hn⟩
    have hkb := kblk_real m c hk ⟨n, hn⟩
    generalize ht : (⟨n, hn⟩ : Fin cfg0.N) = t at hqb hkb
    have hv : t.val = n := by rw [← ht]
    show (∀ r, IsReal ((outsAt0 m c n hn).2.1 r)) ∧ (∀ r, IsPos ((outsAt0 m c n hn).2.2 r))
    have e : outsAt0 m c n hn = outsAt0 m c t.val t.isLt := by subst ht; rfl
    rw [e]
    by_cases h0 : t.val % 4 = 0
    · have h1 : ¬t.val % 4 = 3 := by omega
      rw [outsAt0_A m c t h0 h1]
      dsimp only
      rw [max_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (qblk m c t) (kblk m c t) (vblk m c t),
        sum_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (qblk m c t) (kblk m c t) (vblk m c t),
        pay7_eq]
      exact ⟨newmax_real _ _ _ hqb hkb reset_max_ne_top, newsum_pos _ _ _ _ hqb hkb reset_max_ne_top reset_sum_nonneg⟩
    · have hp := ih (t.val - 1) (by omega) (Nat.lt_of_le_of_lt (Nat.sub_le _ _) t.isLt)
      by_cases h1 : t.val % 4 = 3
      · rw [outsAt0_C m c t h0 h1]
        dsimp only
        rw [max_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (qblk m c t) (kblk m c t) (vblk m c t) (outsAt0 m c (t.val - 1) (Nat.lt_of_le_of_lt (Nat.sub_le _ _) t.isLt)).2.1 (outsAt0 m c (t.val - 1) (Nat.lt_of_le_of_lt (Nat.sub_le _ _) t.isLt)).2.2,
          sum_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (qblk m c t) (kblk m c t) (vblk m c t) (outsAt0 m c (t.val - 1) (Nat.lt_of_le_of_lt (Nat.sub_le _ _) t.isLt)).2.1 (outsAt0 m c (t.val - 1) (Nat.lt_of_le_of_lt (Nat.sub_le _ _) t.isLt)).2.2,
          pay7_eq]
        exact ⟨newmax_real _ _ _ hqb hkb fun r => (hp.1 r).ne_top,
          newsum_pos _ _ _ _ hqb hkb (fun r => (hp.1 r).ne_top) fun r => (hp.2 r).isNonneg⟩
      · rw [outsAt0_B m c t h0 h1]
        dsimp only
        rw [max_mid c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (qblk m c t) (kblk m c t) (vblk m c t) (outsAt0 m c (t.val - 1) (Nat.lt_of_le_of_lt (Nat.sub_le _ _) t.isLt)).2.1 (outsAt0 m c (t.val - 1) (Nat.lt_of_le_of_lt (Nat.sub_le _ _) t.isLt)).2.2,
          sum_mid c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (qblk m c t) (kblk m c t) (vblk m c t) (outsAt0 m c (t.val - 1) (Nat.lt_of_le_of_lt (Nat.sub_le _ _) t.isLt)).2.1 (outsAt0 m c (t.val - 1) (Nat.lt_of_le_of_lt (Nat.sub_le _ _) t.isLt)).2.2,
          pay7_eq]
        exact ⟨newmax_real _ _ _ hqb hkb fun r => (hp.1 r).ne_top,
          newsum_pos _ _ _ _ hqb hkb (fun r => (hp.1 r).ne_top) fun r => (hp.2 r).isNonneg⟩

/-- The output block is written back only at the last key block of a run. -/
theorem flush_last : ∀ t : Fin cfg0.N, (cfg0.win 3).flush t = true → t.val % 4 = 3 :=
  (by decide +kernel : ∀ t : Fin grid0.N, (cfg0.win 3).flush t = true → t.val % 4 = 3)

/-- The value window and the output window move together. -/
theorem index_eq : ∀ t : Fin cfg0.N, win0_2.index t (0 : Fin 3) = win0_3.index t (0 : Fin 3)
    ∧ win0_2.index t (1 : Fin 3) = win0_3.index t (1 : Fin 3)
    ∧ win0_2.index t (2 : Fin 3) = win0_3.index t (2 : Fin 3) :=
  (by decide +kernel : ∀ t : Fin grid0.N, _)

/-- WHAT A WRITE-BACK WRITES is that point's block of the value array. -/
theorem flushed_eq (c : Dev nD) (hq : ∀ i, IsReal (qarr m c i)) (hk : ∀ i, IsReal (karr m c i))
    (t : Fin cfg0.N) (hf : (cfg0.win 3).flush t = true) :
    (dats m 0 c).flushed 3 t = ((cfg0.win 3).blk t).view.read (Elt Ideal) (varr m c) := by
  have h1 := flush_last t hf
  have h0 : ¬t.val % 4 = 0 := by omega
  have hp := carried m c hq hk (t.val - 1) (Nat.lt_of_le_of_lt (Nat.sub_le _ _) t.isLt)
  have hqb := qblk_real m c hq t
  have hkb := kblk_real m c hk t
  rw [Value.flushed3_C m c t h0 h1,
    out_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (qblk m c t) (kblk m c t) (vblk m c t) (outsAt0 m c (t.val - 1) (Nat.lt_of_le_of_lt (Nat.sub_le _ _) t.isLt)).2.1 (outsAt0 m c (t.val - 1) (Nat.lt_of_le_of_lt (Nat.sub_le _ _) t.isLt)).2.2,
    out_eq _ (newsum_pos _ _ _ _ hqb hkb (fun r => (hp.1 r).ne_top) fun r => (hp.2 r).isNonneg) _]
  obtain ⟨e0, e1, e2⟩ := index_eq t
  funext j
  show V m c main_arg2 (((cfg0.win 2).blk t).view.emb j) = V m c main_arg2 (((cfg0.win 3).blk t).view.emb j)
  refine congrArg _ ?_
  funext a; apply Fin.ext
  match a with
  | ⟨0, _⟩ => show win0_2.index t (0 : Fin 3) * 1 + 1 * (j 0).val = win0_3.index t (0 : Fin 3) * 1 + 1 * (j 0).val; omega
  | ⟨1, _⟩ => show win0_2.index t (1 : Fin 3) * 512 + 1 * (j 1).val = win0_3.index t (1 : Fin 3) * 512 + 1 * (j 1).val; omega
  | ⟨2, _⟩ => show win0_2.index t (2 : Fin 3) * 512 + 1 * (j 2).val = win0_3.index t (2 : Fin 3) * 512 + 1 * (j 2).val; omega

/-- An index of the result array is in point `t`'s block iff each coordinate is in the block's range. -/
theorem mem_blk (t : Fin cfg0.N) (i : S8x2048x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v0).slice (win0_3.rect t)).set ↔ _
  rw [View.set_slice_whole, Rect.mem_set_unit]
  exact Iff.rfl

/-- Every (batch, query block) pair has a point that writes its block back. -/
theorem block_onto : ∀ (b : Fin 8) (qi : Fin 4), ∃ t : Fin cfg0.N, (cfg0.win 3).flush t = true ∧ win0_3.index t = ![b.val, qi.val, 0] :=
  (by decide +kernel : ∀ (b : Fin 8) (qi : Fin 4), ∃ t : Fin grid0.N, (cfg0.win 3).flush t = true ∧ win0_3.index t = ![b.val, qi.val, 0])

/-- The written-back blocks cover the result array. -/
theorem covered (i : S8x2048x512.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 512 := (i 2).isLt
  obtain ⟨t, hf, ht⟩ := block_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, hf, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- THE RESULT ARRAY after the run is the value array. -/
theorem final (c : Dev nD) (hq : ∀ i, IsReal (qarr m c i)) (hk : ∀ i, IsReal (karr m c i)) :
    (dats m 0 c).arrAt 3 cfg0.N = varr m c :=
  (dats m 0 c).arrAt_eq_of_cover 3 (varr m c) (fun t hf => flushed_eq m c hq hk t hf) covered

/-- THE KERNEL'S RUN at the ideal values, from a memory whose query and key arrays hold real numbers: it
    terminates with the result array equal to the value array and the arguments unchanged. -/
theorem run (hq : ∀ c : Dev nD, ∀ i, IsReal (qarr m c i)) (hk : ∀ c : Dev nD, ∀ i, IsReal (karr m c i)) :
    θ_run defs (onTc (τ := τ) (main (F := Ideal))) ⟨m, fun _ => 0, ρ⟩ fun r => ∀ c : Dev nD,
      r.2.mem ((c : Thread nD τ).loc main_v0) = m ((c : Thread nD τ).loc main_arg2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hq c) (hk c)), (h c).2⟩)
    (Value.run_blocks m ρ)

end Cert.KernelIdeal.RowSum

end
-- ==== Proof.RefValue.lean ====
/-
  The reference's result is v.

  The reference computes out[b,i,d] = v[b,i,d] · Σ_j softmax(q kᵀ / √512)[b,i,j].  When every entry of q and k
  is a real number, every score is a real number, the row maximum is a real number, every exponential is a
  positive real, and the softmax row sums to exactly one; so the result is v.
-/
import proofs.«170930_j43035572306294_1_alg».proof.Proof.Gen.ReferenceIdeal.Read
import proofs.«170930_j43035572306294_1_alg».proof.Proof.Extended

noncomputable section

namespace Cert.RowSum

open Cert.ReferenceIdeal Cert.ReferenceIdeal.Gen Cert.ReferenceIdeal.Read Idealize.ShloMosaic Idealize.ShloMosaic.TcCoe Idealize.SL.Sem Idealize.ShloMosaic.StableHlo

namespace Ref

/-- The pattern 0x44000000 is the real number 512. -/
theorem ofBits_512 : Ideal.ofBits .f32 0x44000000#32 = ((512 : ℝ) : EReal) := by
  simp [Ideal.ofBits, Ideal.ieee, -EReal.coe_mul]; norm_num

/-- The pattern 0xFF800000 is -∞. -/
theorem ofBits_negInf : Ideal.ofBits .f32 0xFF800000#32 = ⊥ := by
  simp [Ideal.ofBits, Ideal.ieee]

/-- The square root of a positive real is a positive real. -/
theorem isPos_sqrt {x : EReal} (h : IsPos x) : IsPos (Ideal.sqrt x) := by
  obtain ⟨r, hr, rfl⟩ := h
  rw [Ideal.sqrt_coe, if_neg (not_lt.mpr hr.le)]
  exact ⟨Real.sqrt r, Real.sqrt_pos.mpr hr, rfl⟩

/-- A real number divided by a positive real is a real number. -/
theorem isReal_div_isPos {x y : EReal} (hx : IsReal x) (hy : IsPos y) : IsReal (Ideal.div x y) := by
  obtain ⟨a, rfl⟩ := hx; obtain ⟨b, hb, rfl⟩ := hy
  rw [Ideal.div_coe hb.ne']
  exact ⟨a * (1 / b), (EReal.coe_mul a (1 / b)).symm⟩

section

variable (q k v : FVec Ideal S8x2048x512 .f32)

/-- Every score (q kᵀ)[b,i,j] / √512 is a real number. -/
theorem score_real (hq : ∀ i, IsReal (q i)) (hk : ∀ i, IsReal (k i)) (i : S8x2048x2048.Idx) :
    IsReal (val_main_v3 (F := Ideal) q k i) := by
  rw [val_main_v3_apply, val_main_v0_apply, val_main_v2_apply, val_main_v1_apply, val_main_cst_apply]
  show IsReal (Ideal.div _ (Ideal.sqrt (Ideal.ofBits .f32 0x44000000#32)))
  rw [ofBits_512]
  refine isReal_div_isPos (isReal_sum _ _ fun n _ => (hq _).mul (hk _)) (isPos_sqrt ⟨512, by norm_num, rfl⟩)

/-- The row maximum is a real number. -/
theorem rowMax_real (hq : ∀ i, IsReal (q i)) (hk : ∀ i, IsReal (k i)) (j : S8x2048.Idx) :
    IsReal (val_main_v6 (F := Ideal) q k j) := by
  rw [val_main_v6_apply, val_main_v5_apply, val_main_cst_1_apply]
  show IsReal (max (Ideal.ofBits .f32 0xFF800000#32) (val_main_v4 (F := Ideal) q k j))
  rw [ofBits_negInf]
  refine isReal_max bot_ne_top ?_
  have hred : S8x2048x2048.Reduces [(2 : Fin 3)] S8x2048 := by decide
  have key : val_main_v4 (F := Ideal) q k j
      = (Finset.univ : Finset (Fin 2048)).fold max (Ideal.ofBits .f32 0xFF800000#32)
          (val_main_v3 (F := Ideal) q k ∘ hred.lift j) :=
    Host.reduce_eq_fold_single (s := S8x2048x2048) (t := S8x2048) (a := (2 : Fin 3))
      (FloatOps.maximumf (F := Ideal) (φ := .f32)) (val_main_v3 (F := Ideal) q k) (val_main_cst_0 (F := Ideal))
      reducesTo_S8x2048x2048_S8x2048_d2 hred h_S_ j
  rw [key, ofBits_negInf]
  exact isReal_fold_max _ ⟨⟨0, by decide⟩, Finset.mem_univ _⟩ _ fun n _ => score_real q k hq hk _

/-- Every exponential exp(score − row maximum) is a positive real. -/
theorem expo_pos (hq : ∀ i, IsReal (q i)) (hk : ∀ i, IsReal (k i)) (i : S8x2048x2048.Idx) :
    IsPos (val_main_v10 (F := Ideal) q k i) := by
  rw [val_main_v10_apply, val_main_v9_apply, val_main_v8_apply, val_main_v7_apply]
  exact isPos_exp ((score_real q k hq hk _).sub (rowMax_real q k hq hk _))

/-- The softmax row sum is one at every row. -/
theorem rowSum_one (hq : ∀ i, IsReal (q i)) (hk : ∀ i, IsReal (k i)) (j : S8x2048.Idx) :
    val_main_v15 (F := Ideal) q k j = 1 := by
  rw [val_main_v15_apply, val_main_cst_3_apply]
  show Ideal.ofBits .f32 0x00000000#32 + _ = 1
  rw [Ideal.ofBits_zero_f32, zero_add]
  have e : ∀ n : Fin 2048, val_main_v14 (F := Ideal) q k (idx_main_v15 j n)
      = Ideal.div (val_main_v10 (F := Ideal) q k (idx_main_v15 j n))
          (∑ n' : Fin 2048, val_main_v10 (F := Ideal) q k (idx_main_v15 j n')) := fun n => by
    rw [val_main_v14_apply, val_main_v13_apply, val_main_v12_apply, val_main_v11_apply, val_main_cst_2_apply]
    show Ideal.div _ (Ideal.ofBits .f32 0x00000000#32 + _) = _
    rw [Ideal.ofBits_zero_f32, zero_add]
  rw [Finset.sum_congr rfl fun n _ => e n]
  exact sum_div_sum (fun n : Fin 2048 => val_main_v10 (F := Ideal) q k (idx_main_v15 j n)) fun n => expo_pos q k hq hk _

end

end Ref

section

variable (q k v : FVec Ideal S8x2048x512 .f32)

open Ref in
/-- THE REFERENCE'S RESULT IS v. -/
theorem ref_result (hq : ∀ i, IsReal (q i)) (hk : ∀ i, IsReal (k i)) :
    mulf v (broadcastInDim S8x2048x512 ![0, 1, 2] bcast_S8x2048x1_S8x2048x512_0_1_2 (broadcastInDim S8x2048x1 ![0, 1] bcast_S8x2048_S8x2048x1_0_1 (Host.reduceAdd (Host.divf (Host.exp (subf (Host.divf (Host.dotGeneral dot_S8x2048x512_S8x2048x512_S8x2048x2048_2_2_1_1_0_0 none q k) (broadcastInDim S8x2048x2048 ![] bcast_S_S8x2048x2048 (Host.sqrt (constant S_ .f32 0x44000000#32)))) (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) (Host.reduce FloatOps.maximumf (Host.divf (Host.dotGeneral dot_S8x2048x512_S8x2048x512_S8x2048x2048_2_2_1_1_0_0 none q k) (broadcastInDim S8x2048x2048 ![] bcast_S_S8x2048x2048 (Host.sqrt (constant S_ .f32 0x44000000#32)))) (constant S_ .f32 0xFF800000#32) reducesTo_S8x2048x2048_S8x2048_d2 h_S_)))))) (broadcastInDim S8x2048x2048 ![0, 1, 2] bcast_S8x2048x1_S8x2048x2048_0_1_2 (broadcastInDim S8x2048x1 ![0, 1] bcast_S8x2048_S8x2048x1_0_1 (Host.reduceAdd (Host.exp (subf (Host.divf (Host.dotGeneral dot_S8x2048x512_S8x2048x512_S8x2048x2048_2_2_1_1_0_0 none q k) (broadcastInDim S8x2048x2048 ![] bcast_S_S8x2048x2048 (Host.sqrt (constant S_ .f32 0x44000000#32)))) (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) (Host.reduce FloatOps.maximumf (Host.divf (Host.dotGeneral dot_S8x2048x512_S8x2048x512_S8x2048x2048_2_2_1_1_0_0 none q k) (broadcastInDim S8x2048x2048 ![] bcast_S_S8x2048x2048 (Host.sqrt (constant S_ .f32 0x44000000#32)))) (constant S_ .f32 0xFF800000#32) reducesTo_S8x2048x2048_S8x2048_d2 h_S_)))))) (constant S_ .f32 0x00000000#32) reducesTo_S8x2048x2048_S8x2048_d2 h_S_)))) (constant S_ .f32 0x00000000#32) reducesTo_S8x2048x2048_S8x2048_d2 h_S_))) = v := by
  rw [val_main_v18_eq]
  funext i
  rw [val_main_v18_apply, val_main_v17_apply, val_main_v16_apply, rowSum_one q k hq hk]
  show v i * 1 = v i
  exact mul_one _

end

end Cert.RowSum

end
-- ==== Proof.lean ====
/-
  The certificate of an attention-style kernel whose result is, exactly, its value operand.

  Kernel and reference compute `out[b,i,d] = v[b,i,d] · Σ_j softmax(q kᵀ / √512)[b,i,j]`: the reference with one
  dense softmax over the 2048 keys, the kernel with the online recurrence over four blocks of 512 keys (a running
  row maximum and a running normaliser carried in scratch, the scores scaled by the single-precision value of
  1/√512) and a final factor `l / l`.  At the ideal values a softmax row sums to exactly one as soon as every score
  is a real number — each term is a positive real divided by the positive real sum of all of them — and a positive
  real divided by itself is one; so both programs return `v · 1 = v`, whatever scale multiplies the scores.  The
  precondition (every input finite) makes the entries of `q` and `k`, hence the scores, real numbers.

  Proof/Extended.lean      real, non-negative and positive extended reals; the row-sum law
  Proof/Finite.lean        the printed precondition gives real entries of `q` and `k`
  Proof/Pieces.lean        what each control case stores in the carried vectors and the output block
  Proof/Payload.lean       one step of the recurrence keeps the maximum real and the normaliser positive
  Proof/KernelValue.lean   the invariant over the grid, the write-backs, the result array is `v`
  Proof/RefValue.lean      the reference's result is `v`
-/
import proofs.«170930_j43035572306294_1_alg».proof.Defs
import proofs.«170930_j43035572306294_1_alg».proof.Proof.Gen.Kernel
import proofs.«170930_j43035572306294_1_alg».proof.Proof.Gen.Kernel.Skeleton
import proofs.«170930_j43035572306294_1_alg».proof.Proof.Gen.Kernel.Launch
import proofs.«170930_j43035572306294_1_alg».proof.Proof.Gen.Kernel.Points
import proofs.«170930_j43035572306294_1_alg».proof.Proof.Gen.Kernel.Frame
import proofs.«170930_j43035572306294_1_alg».proof.Proof.Gen.KernelIdeal
import proofs.«170930_j43035572306294_1_alg».proof.Proof.Gen.KernelIdeal.Skeleton
import proofs.«170930_j43035572306294_1_alg».proof.Proof.Gen.KernelIdeal.Launch
import proofs.«170930_j43035572306294_1_alg».proof.Proof.Gen.KernelIdeal.Points
import proofs.«170930_j43035572306294_1_alg».proof.Proof.Gen.KernelIdeal.Frame
import proofs.«170930_j43035572306294_1_alg».proof.Proof.Gen.ReferenceIdeal
import proofs.«170930_j43035572306294_1_alg».proof.Proof.Gen.Pre_finite_inputs
import proofs.«170930_j43035572306294_1_alg».proof.Proof.Gen.KernelIdeal.Value
import proofs.«170930_j43035572306294_1_alg».proof.Proof.Gen.ReferenceIdeal.Run
import proofs.«170930_j43035572306294_1_alg».proof.Proof.Gen.ReferenceIdeal.Read
import proofs.«170930_j43035572306294_1_alg».proof.Proof.Finite
import proofs.«170930_j43035572306294_1_alg».proof.Proof.KernelValue
import proofs.«170930_j43035572306294_1_alg».proof.Proof.RefValue
import Idealize.ShloMosaic.Adequacy
import Idealize.ShloMosaic.Init

noncomputable section

namespace Cert.Proof

open Idealize.ShloMosaic Idealize.ShloMosaic.TcCoe Idealize.SL.Sem Cert.RowSum

/-- The word-level kernel runs and leaves its arguments unchanged. -/
theorem frame_kernel : Cert.frame_Kernel := fun m ρ _ => Cert.Kernel.Gen.frame m ρ

/-- So does its reading at the ideal values. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `q`, `k`, `v`, all finite: both programs end with the result array equal to
    `v` — the kernel because its final factor `l / l` is one, the reference because a softmax row of real
    scores sums to one. -/
theorem algebraic : Cert.algebraic_KernelIdeal_ReferenceIdeal := by
  intro m ρ m' ρ' hpre hagree
  have hqk := fun c => real_of_pre _ _ _ (hpre c)
  refine ⟨fun c => m ((c.tc : Thread Cert.KernelIdeal.nD Cert.KernelIdeal.τ).loc Cert.KernelIdeal.main_arg2),
    Cert.KernelIdeal.RowSum.run m ρ (fun c => (hqk c).1) (fun c => (hqk c).2), ?_⟩
  refine (θ_run Cert.ReferenceIdeal.defs _ _).mono (fun _ h c => ⟨?_, (h c).2⟩)
    (Cert.ReferenceIdeal.Value.run (F := Ideal) m' ρ')
  rw [(h c).1]
  refine (ref_result _ _ _ ?_ ?_).trans (hagree c).2.2
  · intro i; rw [(hagree c).1]; exact (hqk c).1 i
  · intro i; rw [(hagree c).2.1]; exact (hqk c).2 i

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
